-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x2500000 : Shape := ⟨2, ![2, 2500000]⟩
abbrev S5x32 : Shape := ⟨2, ![5, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x32 : S_.BroadcastsInDim S5x32 (![] : Fin 0 → Fin S5x32.rank)
  reducesTo_S5x32_S_d0_1 : S5x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x5 .f32) (main_arg1 : IVec S2x2500000 32) (main_arg2 : FVec F S5x32 .f32) (main_arg3 : FVec F S32 .f32) (main_arg4 : FVec F S32x1 .f32) (main_arg5 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x32 .f32 := Host.absf main_arg2
  let main_cst_0 : FVec F S_ .f32 := constant S_ .f32 0x7F800000#32
  let main_v5 : FVec F S5x32 .f32 := broadcastInDim S5x32 ![] bcast_S_S5x32 main_cst_0
  let main_v6 : IVec S5x32 1 := cmpf .olt main_v4 main_v5
  let main_c_1 : IVec S_ 1 := constantI S_ 1 1#1
  let main_v7 : IVec S_ 1 := (fun x v => Host.reduce IntOp.andi x v reducesTo_S5x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_v13 main_v16
-- ==== Kernel.lean ====
abbrev S100000x5 : Shape := ⟨2, ![100000, 5]⟩
abbrev S2x2500000 : Shape := ⟨2, ![2, 2500000]⟩
abbrev S5x32 : Shape := ⟨2, ![5, 32]⟩
abbrev S32 : Shape := ⟨1, ![32]⟩
abbrev S32x1 : Shape := ⟨2, ![32, 1]⟩
abbrev S1 : Shape := ⟨1, ![1]⟩
abbrev S1x2500000 : Shape := ⟨2, ![1, 2500000]⟩
abbrev S2500000 : Shape := ⟨1, ![2500000]⟩
abbrev S100000 : Shape := ⟨1, ![100000]⟩
abbrev S2600000 : Shape := ⟨1, ![2600000]⟩
abbrev S_ : Shape := ⟨0, ![]⟩
abbrev S2600000x1 : Shape := ⟨2, ![2600000, 1]⟩
abbrev S100000x32 : Shape := ⟨2, ![100000, 32]⟩
abbrev S2000x5 : Shape := ⟨2, ![2000, 5]⟩
abbrev S2000x32 : Shape := ⟨2, ![2000, 32]⟩
abbrev S2600000x32 : Shape := ⟨2, ![2600000, 32]⟩
abbrev S1x32 : Shape := ⟨2, ![1, 32]⟩
abbrev S100000x1 : Shape := ⟨2, ![100000, 1]⟩
abbrev S2000x1 : Shape := ⟨2, ![2000, 1]⟩
abbrev S1x1 : Shape := ⟨2, ![1, 1]⟩

abbrev nBuf : Space → Nat
  | .hbm => 82
  | .vmem => 20
  | .smem => 0
  | _ => 0

abbrev bufTy : (tb : Table) → Fin (tcTables nBuf tb) → BufTy
  | .hbm, ⟨0, _⟩ => ⟨S100000x5, .f32⟩
  | .hbm, ⟨1, _⟩ => ⟨S2x2500000, .i32⟩
  | .hbm, ⟨2, _⟩ => ⟨S5x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S1x2500000, .i32⟩
  | .hbm, ⟨7, _⟩ => ⟨S2500000, .i32⟩
  | .hbm, ⟨8, _⟩ => ⟨S1x2500000, .i32⟩
  | .hbm, ⟨9, _⟩ => ⟨S2500000, .i32⟩
  | .hbm, ⟨10, _⟩ => ⟨S100000, .i32⟩
  | .hbm, ⟨11, _⟩ => ⟨S2600000, .i32⟩
  | .hbm, ⟨12, _⟩ => ⟨S2600000, .i32⟩
  | .hbm, ⟨13, _⟩ => ⟨S_, .f32⟩
  | .hbm, ⟨14, _⟩ => ⟨S2600000, .f32⟩
  | .hbm, ⟨15, _⟩ => ⟨S_, .f32⟩
  | .hbm, ⟨16, _⟩ => ⟨S100000, .f32⟩
  | .hbm, ⟨17, _⟩ => ⟨S2600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S2600000, .i32⟩
  | .hbm, ⟨28, _⟩ => ⟨S2600000, .i1⟩
  | .hbm, ⟨29, _⟩ => ⟨S_, .i32⟩
  | .hbm, ⟨30, _⟩ => ⟨S2600000, .i32⟩
  | .hbm, ⟨31, _⟩ => ⟨S2600000, .i32⟩
  | .hbm, ⟨32, _⟩ => ⟨S2600000, .i32⟩
  | .hbm, ⟨33, _⟩ => ⟨S2600000x1, .i32⟩
  | .hbm, ⟨34, _⟩ => ⟨S2600000, .f32⟩
  | .hbm, ⟨35, _⟩ => ⟨S_, .i32⟩
  | .hbm, ⟨36, _⟩ => ⟨S2600000, .i32⟩
  | .hbm, ⟨37, _⟩ => ⟨S2600000, .i1⟩
  | .hbm, ⟨38, _⟩ => ⟨S_, .i32⟩
  | .hbm, ⟨39, _⟩ => ⟨S2600000, .i32⟩
  | .hbm, ⟨40, _⟩ => ⟨S2600000, .i32⟩
  | .hbm, ⟨41, _⟩ => ⟨S2600000, .i32⟩
  | .hbm, ⟨42, _⟩ => ⟨S2600000x1, .i32⟩
  | .hbm, ⟨43, _⟩ => ⟨S2600000, .f32⟩
  | .hbm, ⟨44, _⟩ => ⟨S2600000, .f32⟩
  | .hbm, ⟨45, _⟩ => ⟨S100000x32, .f32⟩
  | .hbm, ⟨46, _⟩ => ⟨S_, .i32⟩
  | .hbm, ⟨47, _⟩ => ⟨S2600000, .i32⟩
  | .hbm, ⟨48, _⟩ => ⟨S2600000, .i1⟩
  | .hbm, ⟨49, _⟩ => ⟨S_, .i32⟩
  | .hbm, ⟨50, _⟩ => ⟨S2600000, .i32⟩
  | .hbm, ⟨51, _⟩ => ⟨S2600000, .i32⟩
  | .hbm, ⟨52, _⟩ => ⟨S2600000, .i32⟩
  | .hbm, ⟨53, _⟩ => ⟨S2600000x1, .i32⟩
  | .hbm, ⟨54, _⟩ => ⟨S2600000x32, .f32⟩
  | .hbm, ⟨55, _⟩ => ⟨S2600000x1, .f32⟩
  | .hbm, ⟨56, _⟩ => ⟨S2600000x32, .f32⟩
  | .hbm, ⟨57, _⟩ => ⟨S2600000x32, .f32⟩
  | .hbm, ⟨58, _⟩ => ⟨S_, .f32⟩
  | .hbm, ⟨59, _⟩ => ⟨S100000x32, .f32⟩
  | .hbm, ⟨60, _⟩ => ⟨S2600000x1, .i32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x1, .f32⟩
  | .hbm, ⟨65, _⟩ => ⟨S_, .i32⟩
  | .hbm, ⟨66, _⟩ => ⟨S2600000, .i32⟩
  | .hbm, ⟨67, _⟩ => ⟨S2600000, .i1⟩
  | .hbm, ⟨68, _⟩ => ⟨S_, .i32⟩
  | .hbm, ⟨69, _⟩ => ⟨S2600000, .i32⟩
  | .hbm, ⟨70, _⟩ => ⟨S2600000, .i32⟩
  | .hbm, ⟨71, _⟩ => ⟨S2600000, .i32⟩
  | .hbm, ⟨72, _⟩ => ⟨S2600000x1, .i32⟩
  | .hbm, ⟨73, _⟩ => ⟨S2600000x1, .f32⟩
  | .hbm, ⟨74, _⟩ => ⟨S2600000x1, .f32⟩
  | .hbm, ⟨75, _⟩ => ⟨S2600000x1, .f32⟩
  | .hbm, ⟨76, _⟩ => ⟨S_, .f32⟩
  | .hbm, ⟨77, _⟩ => ⟨S100000x1, .f32⟩
  | .hbm, ⟨78, _⟩ => ⟨S2600000x1, .i32⟩
  | .hbm, ⟨79, _⟩ => ⟨S100000x1, .f32⟩
  | .hbm, ⟨80, _⟩ => ⟨S1x1, .f32⟩
  | .hbm, ⟨81, _⟩ => ⟨S100000x1, .f32⟩
  | .local _ .vmem, ⟨0, _⟩ => ⟨S2000x5, .f32⟩
  | .local _ .vmem, ⟨1, _⟩ => ⟨S2000x5, .f32⟩
  | .local _ .vmem, ⟨2, _⟩ => ⟨S5x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S1x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S32x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S1x1, .f32⟩
  | .local _ .vmem, ⟨18, _⟩ => ⟨S2000x1, .f32⟩
  | .local _ .vmem, ⟨19, _⟩ => ⟨S2000x1, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  concatenates_S2500000_S100000_S2600000_d0 : Shape.Concatenates [S2500000, S100000] S2600000 0
  bcast_S_S2600000 : S_.BroadcastsInDim S2600000 (![] : Fin 0 → Fin S2600000.rank)
  bcast_S_S100000 : S_.BroadcastsInDim S100000 (![] : Fin 0 → Fin S100000.rank)
  bcast_S2600000_S2600000x1_0 : S2600000.BroadcastsInDim S2600000x1 (![0] : Fin 1 → Fin S2600000x1.rank)
  inb_S2000x5_S2000x5_0_0 : ∀ a, (![0, 0] : Fin 2 → Nat) a + S2000x5.size a ≤ S2000x5.size a
  h_S2000x5 : 0 < S2000x5.numel
  bitsLt_bf16_f32 : FTy.bits .bf16 < FTy.bits .f32
  inb_S5x32_S5x32_0_0 : ∀ a, (![0, 0] : Fin 2 → Nat) a + S5x32.size a ≤ S5x32.size a
  h_S5x32 : 0 < S5x32.numel
  inb_S2000x32_S2000x32_0_0 : ∀ a, (![0, 0] : Fin 2 → Nat) a + S2000x32.size a ≤ S2000x32.size a
  h_S2000x32 : 0 < S2000x32.numel
  bcast_S2600000x1_S2600000x32_0_1 : S2600000x1.BroadcastsInDim S2600000x32 (![0, 1] : Fin 2 → Fin S2600000x32.rank)
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x1_S32x1_0_0 : ∀ a, (![0, 0] : Fin 2 → Nat) a + S32x1.size a ≤ S32x1.size a
  h_S32x1 : 0 < S32x1.numel
  inb_S2000x1_S2000x1_0_0 : ∀ a, (![0, 0] : Fin 2 → Nat) a + S2000x1.size a ≤ S2000x1.size a
  h_S2000x1 : 0 < S2000x1.numel
  bcast_S_S100000x1 : S_.BroadcastsInDim S100000x1 (![] : Fin 0 → Fin S100000x1.rank)
  shapeCasts_S1_S1x1 : S1.ShapeCasts S1x1
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S2600000x1_S2600000_n_0_0_1_wf : ScatterDims.WF S100000 S2600000x1 S2600000 [] [0] [0] 1
  gather_S100000_S2600000x1_S2600000_n_0_n_n_0_1_1_wf : GatherDims.WF S100000 S2600000x1 S2600000 [] [0] [] [0] [] 1 ![1]
  dot_S2000x5_S5x32_S2000x32_1_0_0_1_n_n_wf : DotDims.WF S2000x5 S5x32 S2000x32 [1] [0] [0] [1] [] []
  gather_S100000x32_S2600000x1_S2600000x32_1_0_n_n_0_1_132_wf : GatherDims.WF S100000x32 S2600000x1 S2600000x32 [1] [0] [] [0] [] 1 ![1, 32]
  scatter_S100000x32_S2600000x1_S2600000x32_1_0_0_1_wf : ScatterDims.WF S100000x32 S2600000x1 S2600000x32 [1] [0] [0] 1
  dot_S2000x32_S32x1_S2000x1_1_0_0_1_n_n_wf : DotDims.WF S2000x32 S32x1 S2000x1 [1] [0] [0] [1] [] []
  gather_S100000x1_S2600000x1_S2600000x1_1_0_n_n_0_1_11_wf : GatherDims.WF S100000x1 S2600000x1 S2600000x1 [1] [0] [] [0] [] 1 ![1, 1]
  scatter_S100000x1_S2600000x1_S2600000x1_1_0_0_1_wf : ScatterDims.WF S100000x1 S2600000x1 S2600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x5.size a ≤ S100000x5.size a
  hwx0_0 : ∀ i : grid0.Coords, EltTy.bits .f32 = 32 ∨ (Rect.block (s := S100000x5) S2000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32.size a ≤ S5x32.size a
  hwx0_1 : ∀ i : grid0.Coords, EltTy.bits .f32 = 32 ∨ (Rect.block (s := S5x32) S5x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x1.size a ≤ S32x1.size a
  hwx2_1 : ∀ i : grid2.Coords, EltTy.bits .f32 = 32 ∨ (Rect.block (s := S32x1) S32x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1.size a ≤ S100000x1.size a
  hwx3_0 : ∀ i : grid3.Coords, EltTy.bits .f32 = 32 ∨ (Rect.block (s := S100000x1) S2000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)

variable [Facts₀]

def scatter_S100000_S2600000x1_S2600000_n_0_0_1 : ScatterDims S100000 S2600000x1 S2600000 where
  updateWindowDims := []
  insertedWindowDims := [0]
  scatterDimsToOperandDims := [0]
  indexVectorDim := 1
  wf := scatter_S100000_S2600000x1_S2600000_n_0_0_1_wf
def gather_S100000_S2600000x1_S2600000_n_0_n_n_0_1_1 : GatherDims S100000 S2600000x1 S2600000 where
  offsetDims := []
  collapsedSliceDims := [0]
  operandBatchingDims := []
  startIndicesBatchingDims := []
  startIndexMap := [0]
  indexVectorDim := 1
  sliceSizes := ![1]
  wf := gather_S100000_S2600000x1_S2600000_n_0_n_n_0_1_1_wf
def dot_S2000x5_S5x32_S2000x32_1_0_0_1_n_n : DotDims S2000x5 S5x32 S2000x32 where
  lhsContracting := [1]
  rhsContracting := [0]
  lhsNonContracting := [0]
  rhsNonContracting := [1]
  lhsBatch := []
  rhsBatch := []
  wf := dot_S2000x5_S5x32_S2000x32_1_0_0_1_n_n_wf
def gather_S100000x32_S2600000x1_S2600000x32_1_0_n_n_0_1_132 : GatherDims S100000x32 S2600000x1 S2600000x32 where
  offsetDims := [1]
  collapsedSliceDims := [0]
  operandBatchingDims := []
  startIndicesBatchingDims := []
  startIndexMap := [0]
  indexVectorDim := 1
  sliceSizes := ![1, 32]
  wf := gather_S100000x32_S2600000x1_S2600000x32_1_0_n_n_0_1_132_wf
def scatter_S100000x32_S2600000x1_S2600000x32_1_0_0_1 : ScatterDims S100000x32 S2600000x1 S2600000x32 where
  updateWindowDims := [1]
  insertedWindowDims := [0]
  scatterDimsToOperandDims := [0]
  indexVectorDim := 1
  wf := scatter_S100000x32_S2600000x1_S2600000x32_1_0_0_1_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf
def gather_S100000x1_S2600000x1_S2600000x1_1_0_n_n_0_1_11 : GatherDims S100000x1 S2600000x1 S2600000x1 where
  offsetDims := [1]
  collapsedSliceDims := [0]
  operandBatchingDims := []
  startIndicesBatchingDims := []
  startIndexMap := [0]
  indexVectorDim := 1
  sliceSizes := ![1, 1]
  wf := gather_S100000x1_S2600000x1_S2600000x1_1_0_n_n_0_1_11_wf
def scatter_S100000x1_S2600000x1_S2600000x1_1_0_0_1 : ScatterDims S100000x1 S2600000x1 S2600000x1 where
  updateWindowDims := [1]
  insertedWindowDims := [0]
  scatterDimsToOperandDims := [0]
  indexVectorDim := 1
  wf := scatter_S100000x1_S2600000x1_S2600000x1_1_0_0_1_wf

abbrev win0_0 : Pipeline.Window sig grid0 :=
  Pipeline.Window.ofSpec (Memref.whole main_arg0) S2000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x5 : Shape := ⟨2, ![100000, 5]⟩
abbrev S2x2500000 : Shape := ⟨2, ![2, 2500000]⟩
abbrev S5x32 : Shape := ⟨2, ![5, 32]⟩
abbrev S32 : Shape := ⟨1, ![32]⟩
abbrev S32x1 : Shape := ⟨2, ![32, 1]⟩
abbrev S1 : Shape := ⟨1, ![1]⟩
abbrev S1x2500000 : Shape := ⟨2, ![1, 2500000]⟩
abbrev S2500000 : Shape := ⟨1, ![2500000]⟩
abbrev S100000 : Shape := ⟨1, ![100000]⟩
abbrev S2600000 : Shape := ⟨1, ![2600000]⟩
abbrev S_ : Shape := ⟨0, ![]⟩
abbrev S2600000x1 : Shape := ⟨2, ![2600000, 1]⟩
abbrev S100000x32 : Shape := ⟨2, ![100000, 32]⟩
abbrev S2600000x32 : Shape := ⟨2, ![2600000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S100000x5, .f32⟩
  | 1 => ⟨S2x2500000, .i32⟩
  | 2 => ⟨S5x32, .f32⟩
  | 3 => ⟨S32, .f32⟩
  | 4 => ⟨S32x1, .f32⟩
  | 5 => ⟨S1, .f32⟩
  | 6 => ⟨S1x2500000, .i32⟩
  | 7 => ⟨S2500000, .i32⟩
  | 8 => ⟨S1x2500000, .i32⟩
  | 9 => ⟨S2500000, .i32⟩
  | 10 => ⟨S100000, .i32⟩
  | 11 => ⟨S2600000, .i32⟩
  | 12 => ⟨S2600000, .i32⟩
  | 13 => ⟨S_, .f32⟩
  | 14 => ⟨S2600000, .f32⟩
  | 15 => ⟨S_, .f32⟩
  | 16 => ⟨S100000, .f32⟩
  | 17 => ⟨S2600000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S2600000, .i32⟩
  | 28 => ⟨S2600000, .i1⟩
  | 29 => ⟨S_, .i32⟩
  | 30 => ⟨S2600000, .i32⟩
  | 31 => ⟨S2600000, .i32⟩
  | 32 => ⟨S2600000, .i32⟩
  | 33 => ⟨S2600000x1, .i32⟩
  | 34 => ⟨S2600000, .f32⟩
  | 35 => ⟨S_, .i32⟩
  | 36 => ⟨S2600000, .i32⟩
  | 37 => ⟨S2600000, .i1⟩
  | 38 => ⟨S_, .i32⟩
  | 39 => ⟨S2600000, .i32⟩
  | 40 => ⟨S2600000, .i32⟩
  | 41 => ⟨S2600000, .i32⟩
  | 42 => ⟨S2600000x1, .i32⟩
  | 43 => ⟨S2600000, .f32⟩
  | 44 => ⟨S2600000, .f32⟩
  | 45 => ⟨S100000x32, .f32⟩
  | 46 => ⟨S_, .i32⟩
  | 47 => ⟨S2600000, .i32⟩
  | 48 => ⟨S2600000, .i1⟩
  | 49 => ⟨S_, .i32⟩
  | 50 => ⟨S2600000, .i32⟩
  | 51 => ⟨S2600000, .i32⟩
  | 52 => ⟨S2600000, .i32⟩
  | 53 => ⟨S2600000x1, .i32⟩
  | 54 => ⟨S2600000x32, .f32⟩
  | 55 => ⟨S2600000x1, .f32⟩
  | 56 => ⟨S2600000x32, .f32⟩
  | 57 => ⟨S2600000x32, .f32⟩
  | 58 => ⟨S_, .f32⟩
  | 59 => ⟨S100000x32, .f32⟩
  | 60 => ⟨S2600000x1, .i32⟩
  | 61 => ⟨S100000x32, .f32⟩
  | 62 => ⟨S1x32, .f32⟩
  | 63 => ⟨S100000x32, .f32⟩
  | 64 => ⟨S100000x32, .f32⟩
  | 65 => ⟨S_, .f32⟩
  | 66 => ⟨S100000x32, .f32⟩
  | 67 => ⟨S100000x32, .f32⟩
  | 68 => ⟨S100000, .i32⟩
  | 69 => ⟨S2600000, .i32⟩
  | 70 => ⟨S2600000, .i32⟩
  | 71 => ⟨S_, .f32⟩
  | 72 => ⟨S2600000, .f32⟩
  | 73 => ⟨S_, .f32⟩
  | 74 => ⟨S100000, .f32⟩
  | 75 => ⟨S2600000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S100000, .f32⟩
  | 83 => ⟨S100000, .f32⟩
  | 84 => ⟨S_, .i32⟩
  | 85 => ⟨S2600000, .i32⟩
  | 86 => ⟨S2600000, .i1⟩
  | 87 => ⟨S_, .i32⟩
  | 88 => ⟨S2600000, .i32⟩
  | 89 => ⟨S2600000, .i32⟩
  | 90 => ⟨S2600000, .i32⟩
  | 91 => ⟨S2600000x1, .i32⟩
  | 92 => ⟨S2600000, .f32⟩
  | 93 => ⟨S_, .i32⟩
  | 94 => ⟨S2600000, .i32⟩
  | 95 => ⟨S2600000, .i1⟩
  | 96 => ⟨S_, .i32⟩
  | 97 => ⟨S2600000, .i32⟩
  | 98 => ⟨S2600000, .i32⟩
  | 99 => ⟨S2600000, .i32⟩
  | 100 => ⟨S2600000x1, .i32⟩
  | 101 => ⟨S2600000, .f32⟩
  | 102 => ⟨S2600000, .f32⟩
  | 103 => ⟨S100000x1, .f32⟩
  | 104 => ⟨S_, .i32⟩
  | 105 => ⟨S2600000, .i32⟩
  | 106 => ⟨S2600000, .i1⟩
  | 107 => ⟨S_, .i32⟩
  | 108 => ⟨S2600000, .i32⟩
  | 109 => ⟨S2600000, .i32⟩
  | 110 => ⟨S2600000, .i32⟩
  | 111 => ⟨S2600000x1, .i32⟩
  | 112 => ⟨S2600000x1, .f32⟩
  | 113 => ⟨S2600000x1, .f32⟩
  | 114 => ⟨S2600000x1, .f32⟩
  | 115 => ⟨S_, .f32⟩
  | 116 => ⟨S100000x1, .f32⟩
  | 117 => ⟨S2600000x1, .i32⟩
  | 118 => ⟨S100000x1, .f32⟩
  | 119 => ⟨S1x1, .f32⟩
  | 120 => ⟨S100000x1, .f32⟩
  | 121 => ⟨S100000x1, .f32⟩
  | 122 => ⟨S100000x1, .f32⟩
  | 123 => ⟨S100000x1, .f32⟩
  | 124 => ⟨S_, .f32⟩
  | 125 => ⟨S100000x1, .f32⟩
  | 126 => ⟨S100000x1, .f32⟩
  | 127 => ⟨S_, .f32⟩
  | _ => ⟨S100000x5, .f32⟩

abbrev hbmTy0_1 (i : Nat) : BufTy := match i % 128 with
  | 0 => ⟨S100000x1, .f32⟩
  | 1 => ⟨S100000x1, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_20 : Ref sig .tc := ⟨.hbm, 124, rfl⟩
abbrev main_v94 : Ref sig .tc := ⟨.hbm, 125, rfl⟩
abbrev main_v95 : Ref sig .tc := ⟨.hbm, 126, rfl⟩
abbrev main_cst_21 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  concatenates_S2500000_S100000_S2600000_d0 : Shape.Concatenates [S2500000, S100000] S2600000 0
  bcast_S_S2600000 : S_.BroadcastsInDim S2600000 (![] : Fin 0 → Fin S2600000.rank)
  bcast_S_S100000 : S_.BroadcastsInDim S100000 (![] : Fin 0 → Fin S100000.rank)
  bcast_S2600000_S2600000x1_0 : S2600000.BroadcastsInDim S2600000x1 (![0] : Fin 1 → Fin S2600000x1.rank)
  bcast_S2600000x1_S2600000x32_0_1 : S2600000x1.BroadcastsInDim S2600000x32 (![0, 1] : Fin 2 → Fin S2600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S2600000x1_S2600000_n_0_0_1_wf : ScatterDims.WF S100000 S2600000x1 S2600000 [] [0] [0] 1
  gather_S100000_S2600000x1_S2600000_n_0_n_n_0_1_1_wf : GatherDims.WF S100000 S2600000x1 S2600000 [] [0] [] [0] [] 1 ![1]
  dot_S100000x5_S5x32_S100000x32_1_0_0_1_n_n_wf : DotDims.WF S100000x5 S5x32 S100000x32 [1] [0] [0] [1] [] []
  gather_S100000x32_S2600000x1_S2600000x32_1_0_n_n_0_1_132_wf : GatherDims.WF S100000x32 S2600000x1 S2600000x32 [1] [0] [] [0] [] 1 ![1, 32]
  scatter_S100000x32_S2600000x1_S2600000x32_1_0_0_1_wf : ScatterDims.WF S100000x32 S2600000x1 S2600000x32 [1] [0] [0] 1
  dot_S100000x32_S32x1_S100000x1_1_0_0_1_n_n_wf : DotDims.WF S100000x32 S32x1 S100000x1 [1] [0] [0] [1] [] []
  gather_S100000x1_S2600000x1_S2600000x1_1_0_n_n_0_1_11_wf : GatherDims.WF S100000x1 S2600000x1 S2600000x1 [1] [0] [] [0] [] 1 ![1, 1]
  scatter_S100000x1_S2600000x1_S2600000x1_1_0_0_1_wf : ScatterDims.WF S100000x1 S2600000x1 S2600000x1 [1] [0] [0] 1

variable [Facts₀]

def scatter_S100000_S2600000x1_S2600000_n_0_0_1 : ScatterDims S100000 S2600000x1 S2600000 where
  updateWindowDims := []
  insertedWindowDims := [0]
  scatterDimsToOperandDims := [0]
  indexVectorDim := 1
  wf := scatter_S100000_S2600000x1_S2600000_n_0_0_1_wf
def gather_S100000_S2600000x1_S2600000_n_0_n_n_0_1_1 : GatherDims S100000 S2600000x1 S2600000 where
  offsetDims := []
  collapsedSliceDims := [0]
  operandBatchingDims := []
  startIndicesBatchingDims := []
  startIndexMap := [0]
  indexVectorDim := 1
  sliceSizes := ![1]
  wf := gather_S100000_S2600000x1_S2600000_n_0_n_n_0_1_1_wf
def dot_S100000x5_S5x32_S100000x32_1_0_0_1_n_n : DotDims S100000x5 S5x32 S100000x32 where
  lhsContracting := [1]
  rhsContracting := [0]
  lhsNonContracting := [0]
  rhsNonContracting := [1]
  lhsBatch := []
  rhsBatch := []
  wf := dot_S100000x5_S5x32_S100000x32_1_0_0_1_n_n_wf
def gather_S100000x32_S2600000x1_S2600000x32_1_0_n_n_0_1_132 : GatherDims S100000x32 S2600000x1 S2600000x32 where
  offsetDims := [1]
  collapsedSliceDims := [0]
  operandBatchingDims := []
  startIndicesBatchingDims := []
  startIndexMap := [0]
  indexVectorDim := 1
  sliceSizes := ![1, 32]
  wf := gather_S100000x32_S2600000x1_S2600000x32_1_0_n_n_0_1_132_wf
def scatter_S100000x32_S2600000x1_S2600000x32_1_0_0_1 : ScatterDims S100000x32 S2600000x1 S2600000x32 where
  updateWindowDims := [1]
  insertedWindowDims := [0]
  scatterDimsToOperandDims := [0]
  indexVectorDim := 1
  wf := scatter_S100000x32_S2600000x1_S2600000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S2600000x1_S2600000x1_1_0_n_n_0_1_11 : GatherDims S100000x1 S2600000x1 S2600000x1 where
  offsetDims := [1]
  collapsedSliceDims := [0]
  operandBatchingDims := []
  startIndicesBatchingDims := []
  startIndexMap := [0]
  indexVectorDim := 1
  sliceSizes := ![1, 1]
  wf := gather_S100000x1_S2600000x1_S2600000x1_1_0_n_n_0_1_11_wf
def scatter_S100000x1_S2600000x1_S2600000x1_1_0_0_1 : ScatterDims S100000x1 S2600000x1 S2600000x1 where
  updateWindowDims := [1]
  insertedWindowDims := [0]
  scatterDimsToOperandDims := [0]
  indexVectorDim := 1
  wf := scatter_S100000x1_S2600000x1_S2600000x1_1_0_0_1_wf

class Facts : Prop extends Facts₀ where

variable [Facts]
-- ==== Proof.Terms.lean ====
/-
  The two-layer graph convolution, as whole-array functions of its inputs.

  Both programs compute, from the edge list `e` (two rows of node numbers) and the node features, the same chain:
  the source and destination lists with one self-loop per node appended (`srcIdx`, `dstIdx`), negative node
  numbers wrapped by the node count (`wrap`), the in-degree of every node as a scatter-sum of ones (`deg`), its
  inverse square root where positive and zero elsewhere (`dinv`), the edge weight `dinv[src] · dinv[dst]` (`nrm`),
  and, per layer, a linear map of the node rows (`lin1`, `lin2`), the weighted gather of source rows summed into
  destination rows (`agg32`, `agg1`), the bias and the activation (`act1`: the positive part; `act2`: the logistic
  function spelt `1 / (1 + exp (-x))`). `out` is their composition. The functions are stated once, over the
  reference program's shape and dimension records, for any float family.
-/
import proofs.«139740_j61314953118384_1_alg».proof.ReferenceIdeal
import proofs.«139740_j61314953118384_1_alg».proof.Proof.Gen.ReferenceIdeal

noncomputable section

namespace Cert.Terms

open Cert.ReferenceIdeal Cert.ReferenceIdeal.Gen Idealize.ShloMosaic Idealize.ShloMosaic.TcCoe Idealize.SL.Sem

variable {F : FTy → Type} [FloatOps F]

/-- The source node of every edge, then every node once (its self-loop). -/
def srcIdx (e : Vec F S2x2500000 .i32) : Vec F S2600000 .i32 :=
  concatenate S2600000 0 [⟨S2500000, (shapeCast _ (extractStridedSlice S1x2500000 ![0, 0] e slices_S2x2500000_S1x2500000_0_0) shapeCasts_S1x2500000_S2500000)⟩, ⟨S100000, (iotaInDim S100000 32 0)⟩] concatenates_S2500000_S100000_S2600000_d0

/-- The destination node of every edge, then every node once. -/
def dstIdx (e : Vec F S2x2500000 .i32) : Vec F S2600000 .i32 :=
  concatenate S2600000 0 [⟨S2500000, (shapeCast _ (extractStridedSlice S1x2500000 ![1, 0] e slices_S2x2500000_S1x2500000_1_0) shapeCasts_S1x2500000_S2500000)⟩, ⟨S100000, (iotaInDim S100000 32 0)⟩] concatenates_S2500000_S100000_S2600000_d0

/-- A negative node number counts from the end: the node count is added to it. -/
def wrap (v : Vec F S2600000 .i32) : Vec F S2600000 .i32 :=
  select (cmpi .slt v (broadcastInDim S2600000 ![] bcast_S_S2600000 (constantI S_ 32 0#32))) (addi v (broadcastInDim S2600000 ![] bcast_S_S2600000 (constantI S_ 32 100000#32))) v

/-- The in-degree of every node: ones summed into the destination nodes. -/
def deg (d : Vec F S2600000 .i32) : Vec F S100000 .f32 :=
  Host.scatterAdd scatter_S100000_S2600000x1_S2600000_n_0_0_1 (broadcastInDim S100000 ![] bcast_S_S100000 (constant S_ .f32 0x00000000#32)) (broadcastInDim S2600000x1 ![0] bcast_S2600000_S2600000x1_0 d) (broadcastInDim S2600000 ![] bcast_S_S2600000 (constant S_ .f32 0x3F800000#32))

/-- `deg ^ (-1/2)` where the degree is positive, zero elsewhere. -/
def dinv (d : Vec F S2600000 .i32) : Vec F S100000 .f32 :=
  select (cmpf (F := F) .ogt (deg d) (broadcastInDim S100000 ![] bcast_S_S100000 (constant S_ .f32 0x00000000#32))) (Host.rsqrt (deg d)) (broadcastInDim S100000 ![] bcast_S_S100000 (constant S_ .f32 0x00000000#32))

/-- The weight of every edge from a per-node factor `dv`: the factor at its source times the factor at its destination. -/
def nrm' (dv : Vec F S100000 .f32) (s d : Vec F S2600000 .i32) : Vec F S2600000 .f32 :=
  mulf (Host.gather gather_S100000_S2600000x1_S2600000_n_0_n_n_0_1_1 dv (broadcastInDim S2600000x1 ![0] bcast_S2600000_S2600000x1_0 (wrap s))) (Host.gather gather_S100000_S2600000x1_S2600000_n_0_n_n_0_1_1 dv (broadcastInDim S2600000x1 ![0] bcast_S2600000_S2600000x1_0 (wrap d)))

/-- The weight of every edge: `dinv` at its source times `dinv` at its destination. -/
def nrm (s d : Vec F S2600000 .i32) : Vec F S2600000 .f32 := nrm' (dinv d) s d

/-- Layer 1's propagation: every edge carries its source's row, scaled by the edge's weight, into its destination's row. -/
def agg32 (s d : Vec F S2600000 .i32) (n : Vec F S2600000 .f32) (lin : Vec F S100000x32 .f32) : Vec F S100000x32 .f32 :=
  Host.scatterAdd scatter_S100000x32_S2600000x1_S2600000x32_1_0_0_1 (broadcastInDim S100000x32 ![] bcast_S_S100000x32 (constant S_ .f32 0x00000000#32)) (broadcastInDim S2600000x1 ![0] bcast_S2600000_S2600000x1_0 d) (mulf (Host.gather gather_S100000x32_S2600000x1_S2600000x32_1_0_n_n_0_1_132 lin (broadcastInDim S2600000x1 ![0] bcast_S2600000_S2600000x1_0 (wrap s))) (broadcastInDim S2600000x32 ![0, 1] bcast_S2600000x1_S2600000x32_0_1 (broadcastInDim S2600000x1 ![0] bcast_S2600000_S2600000x1_0 n)))

/-- Layer 2's propagation, on one-column rows. -/
def agg1 (s d : Vec F S2600000 .i32) (n : Vec F S2600000 .f32) (lin : Vec F S100000x1 .f32) : Vec F S100000x1 .f32 :=
  Host.scatterAdd scatter_S100000x1_S2600000x1_S2600000x1_1_0_0_1 (broadcastInDim S100000x1 ![] bcast_S_S100000x1 (constant S_ .f32 0x00000000#32)) (broadcastInDim S2600000x1 ![0] bcast_S2600000_S2600000x1_0 d) (mulf (Host.gather gather_S100000x1_S2600000x1_S2600000x1_1_0_n_n_0_1_11 lin (broadcastInDim S2600000x1 ![0] bcast_S2600000_S2600000x1_0 (wrap s))) (broadcastInDim S2600000x1 ![0] bcast_S2600000_S2600000x1_0 n))

/-- Layer 1's linear map: node features times the 5 × 32 weights. -/
def lin1 (x : Vec F S100000x5 .f32) (w : Vec F S5x32 .f32) : Vec F S100000x32 .f32 :=
  Host.dotGeneral dot_S100000x5_S5x32_S100000x32_1_0_0_1_n_n none x w

/-- Layer 1's bias, given as a one-row array, and positive part. -/
def act1row (a : Vec F S100000x32 .f32) (row : Vec F S1x32 .f32) : Vec F S100000x32 .f32 :=
  maximumf (addf a (broadcastInDim S100000x32 ![0, 1] bcast_S1x32_S100000x32_0_1 row)) (broadcastInDim S100000x32 ![] bcast_S_S100000x32 (constant S_ .f32 0x00000000#32))

/-- Layer 1's bias and positive part. -/
def act1 (a : Vec F S100000x32 .f32) (b : Vec F S32 .f32) : Vec F S100000x32 .f32 :=
  act1row a (broadcastInDim S1x32 ![1] bcast_S32_S1x32_1 b)

/-- Layer 2's linear map: hidden rows times the 32 × 1 weights. -/
def lin2 (h : Vec F S100000x32 .f32) (w : Vec F S32x1 .f32) : Vec F S100000x1 .f32 :=
  Host.dotGeneral dot_S100000x32_S32x1_S100000x1_1_0_0_1_n_n none h w

/-- Layer 2's bias, given as a one-entry array, and the logistic function, spelt `1 / (1 + exp (-x))`. -/
def act2row (a : Vec F S100000x1 .f32) (row : Vec F S1x1 .f32) : Vec F S100000x1 .f32 :=
  Host.divf (broadcastInDim S100000x1 ![] bcast_S_S100000x1 (constant S_ .f32 0x3F800000#32)) (addf (broadcastInDim S100000x1 ![] bcast_S_S100000x1 (constant S_ .f32 0x3F800000#32)) (Host.exp (Host.negf (addf a (broadcastInDim S100000x1 ![0, 1] bcast_S1x1_S100000x1_0_1 row)))))

/-- Layer 2's bias and the logistic function. -/
def act2 (a : Vec F S100000x1 .f32) (b : Vec F S1 .f32) : Vec F S100000x1 .f32 :=
  act2row a (broadcastInDim S1x1 ![1] bcast_S1_S1x1_1 b)

/-- The network: two propagation layers over one edge list. -/
def out (x : Vec F S100000x5 .f32) (e : Vec F S2x2500000 .i32) (w1 : Vec F S5x32 .f32) (b1 : Vec F S32 .f32)
    (w2 : Vec F S32x1 .f32) (b2 : Vec F S1 .f32) : Vec F S100000x1 .f32 :=
  act2 (agg1 (srcIdx e) (dstIdx e) (nrm (srcIdx e) (dstIdx e))
    (lin2 (act1 (agg32 (srcIdx e) (dstIdx e) (nrm (srcIdx e) (dstIdx e)) (lin1 x w1)) b1) w2)) b2

end Cert.Terms

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.LibPlainDotHost.lean ====
/-
  A plain matrix product on the host, read at an entry.

  For the dimension numbers of an M×K operand times a K×N operand with no batch axis, the host's `dot_general` has, at
  entry (p, q), the value Σ_k lhs (p, k) · rhs (k, q) on the extended reals, whatever the schedule key: the same sum
  a kernel's product into a zero accumulator has (`PlainDot.matmul_zero_apply`). Generic in the three extents and
  in the operands' float formats.
-/
import proofs.«139740_j61314953118384_1_alg».proof.Proof.LibPlainDot

namespace Idealize.ShloMosaic.PlainDot

open Idealize.ShloMosaic Idealize.ShloMosaic.ValueIdx

/-- A plain M×K by K×N host product, at entry (p, q), is `Σ_k lhs (p, k) · rhs (k, q)`. -/
theorem dotGeneral_apply {φ₁ φ₂ : FTy} (M K N : Nat) (sched : HostSchedule) (lhs : FVec Ideal ⟨2, ![M, K]⟩ φ₁)
    (rhs : FVec Ideal ⟨2, ![K, N]⟩ φ₂) (p : Fin M) (q : Fin N) :
    FloatOps.dotGeneral (DotDims.plain M K N) none sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Reg0.lean ====
/-
  The first launch: node features times the layer's weights, 2000 rows at a time.

  Its grid has 50 points; point `t` reads rows `2000 t … 2000 t + 1999` of the feature array and the whole 5 × 32
  weight array, multiplies them into a zero accumulator and writes rows `2000 t …` of the result. A change of float
  format is the identity on the extended reals, so entry (p, q) of the block is `Σ_k x (2000 t + p, k) · w (k, q)`:
  entry (2000 t + p, q) of the whole product `x · w` (`Terms.lin1`). The 50 row blocks tile the 100000 rows, so after
  the launch the result array is the whole product.
-/
import proofs.«139740_j61314953118384_1_alg».proof.Proof.Gen.KernelIdeal.Frame
import proofs.«139740_j61314953118384_1_alg».proof.Proof.Terms
import proofs.«139740_j61314953118384_1_alg».proof.Proof.LibPlainDotHost
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the row of the feature block against the column of
    the weights. -/
theorem pay_apply (x0 : Vec Ideal S2000x5 .f32) (x1 : Vec Ideal S5x32 .f32) (p : Fin 2000) (q : Fin 32) :
    k0_pay1 x0 x1 (ix2 p q) = ∑ k : Fin 5, x0 (ix2 p k) * x1 (ix2 k q) := by
  unfold k0_pay1
  exact PlainDot.matmul_zero_apply 2000 5 32 (truncf .bf16 x0 bitsLt_bf16_f32) (truncf .bf16 x1 bitsLt_bf16_f32) p q

/-- The whole product at row `r`, column `q`. -/
theorem lin1_apply (x : Vec Ideal Cert.ReferenceIdeal.S100000x5 .f32) (w : Vec Ideal Cert.ReferenceIdeal.S5x32 .f32)
    (r : Fin 100000) (q : Fin 32) :
    Cert.Terms.lin1 x w (ix2 r q) = ∑ k : Fin 5, x (ix2 r k) * w (ix2 k q) := by
  unfold Cert.Terms.lin1
  exact PlainDot.dotGeneral_apply 100000 5 32 .single x w r q

/-- The printed index maps over the grid: the row blocks move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry: the body's value at `j` of the block is the whole product at the array index `i` that `j` sits at, when
    row `j 0` of the loaded block is row `i 0` of the array and the loaded weights are the weight array. -/
theorem point_eq (x0 : Vec Ideal S2000x5 .f32) (x1 : Vec Ideal S5x32 .f32)
    (x : Vec Ideal Cert.ReferenceIdeal.S100000x5 .f32) (w : Vec Ideal Cert.ReferenceIdeal.S5x32 .f32)
    (j : S2000x32.Idx) (i : Cert.ReferenceIdeal.S100000x32.Idx)
    (h1 : (i 1).val = (j 1).val) (hx0 : ∀ k : Fin 5, x0 (ix2 (j 0) k) = x (ix2 (i 0) k))
    (hx1 : ∀ (k : Fin 5) (q : Fin 32), x1 (ix2 k q) = w (ix2 k q)) :
    k0_pay1 x0 x1 j = Cert.Terms.lin1 x w i := by
  obtain ⟨p, q, rfl⟩ : ∃ (p : Fin 2000) (q : Fin 32), j = ix2 p q := ⟨j 0, j 1, eq_ix2 j⟩
  obtain ⟨r, q', rfl⟩ : ∃ (r : Fin 100000) (q' : Fin 32), i = ix2 r q' := ⟨i 0, i 1, eq_ix2 i⟩
  have hq : q' = q := Fin.ext h1
  subst hq
  rw [pay_apply, lin1_apply]
  exact Finset.sum_congr rfl fun k _ => by rw [hx0 k, hx1 k]

/-- WHAT POINT `t` WRITES BACK is block `t` of the whole product of the two arrays as the launch finds them. -/
theorem flushed_eq (c : Dev nD) (t : Fin cfg0.N) :
    (dat0 V c).flushed 2 t = ((cfg0.win 2).blk t).view.read (Elt Ideal)
      (Cert.Terms.lin1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x5) hz, View.ld_unit_zero (S := S5x32) hz]
  obtain ⟨e0, e1, e2, e3, e4, e5⟩ := idx_facts t
  funext j
  show k0_pay1 (iblk0 V c 0 t) (iblk0 V c 1 t) j
    = Cert.Terms.lin1 (F := Ideal) (V c main_arg0) (V c main_arg2) (((cfg0.win 2).blk t).view.emb j)
  refine point_eq (iblk0 V c 0 t) (iblk0 V c 1 t) (V c main_arg0) (V c main_arg2) j (((cfg0.win 2).blk t).view.emb j) ?_ ?_ ?_
  · show win0_2.index t (1 : Fin 2) * 32 + 1 * (j 1).val = (j 1).val
    omega
  · intro k
    show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 5 + 1 * k.val = k.val; omega
  · intro k q
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 5 + 1 * k.val = k.val; omega
    | ⟨1, _⟩ => show win0_1.index t (1 : Fin 2) * 32 + 1 * q.val = q.val; omega

/-- An index of the result array is in point `t`'s block iff each coordinate is in the block's range on its axis. -/
theorem mem_blk (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v31).slice (win0_2.rect t)).set ↔ _
  rw [View.set_slice_whole, Rect.mem_set_unit]
  exact Iff.rfl

/-- Every row is in the block of the point numbered by the row's quotient by 2000. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 50 := N_0
  refine ⟨⟨(i 0).val / 2000, by rw [hN]; omega⟩, flush0_2 _, ?_⟩
  rw [mem_blk]
  obtain ⟨e0, e1, e2, e3, e4, e5⟩ := idx_facts ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 32 ≤ (i 1).val ∧ (i 1).val < win0_2.index _ (1 : Fin 2) * 32 + 32
    rw [e5]; omega

/-- THE RESULT ARRAY after the launch: the whole product of the feature array and the weight array. -/
theorem final (c : Dev nD) :
    (dat0 V c).arrAt 2 cfg0.N = Cert.Terms.lin1 (F := Ideal) (V c main_arg0) (V c main_arg2) :=
  (dat0 V c).arrAt_eq_of_cover 2 _ (fun t _ => flushed_eq V c t) cover

end Cert.KernelIdeal.Reg0

end
-- ==== Proof.Reg1.lean ====
/-
  The second launch: the bias row added to every node's aggregated row, then the positive part.

  Its grid has 50 points; point `t` reads rows `2000 t … 2000 t + 1999` of the aggregated array, the whole one-row
  bias array, and writes the same rows of its result. The body is pointwise in the row index, so what point `t` writes
  back is rows `2000 t …` of ONE whole-array function of the two arrays (`Terms.act1row`); the 50 row blocks tile the
  100000 rows, so after the launch the result array is that function.
-/
import proofs.«139740_j61314953118384_1_alg».proof.Proof.Gen.KernelIdeal.Frame
import proofs.«139740_j61314953118384_1_alg».proof.Proof.Terms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the block's entry plus the bias row's entry at `q`,
    or zero if that is larger. -/
theorem pay_apply (x0 : Vec Ideal S2000x32 .f32) (x1 : Vec Ideal S1x32 .f32) (p : Fin 2000) (q : Fin 32) :
    k1_pay1 x0 x1 (ix2 p q) = max (x0 (ix2 p q) + x1 (ix2 (0 : Fin 1) q)) (Ideal.ofBits .f32 0x00000000#32) := by
  unfold k1_pay1
  simp only [maximumf_apply, addf_apply, shapeCast_self, broadcast_apply]
  rw [broadcastTo_1b_ab_apply]
  rfl

/-- The whole-array function at row `r`, column `q`. -/
theorem act1row_apply (a : Vec Ideal Cert.ReferenceIdeal.S100000x32 .f32) (row : Vec Ideal Cert.ReferenceIdeal.S1x32 .f32)
    (r : Fin 100000) (q : Fin 32) :
    Cert.Terms.act1row a row (ix2 r q) = max (a (ix2 r q) + row (ix2 (0 : Fin 1) q)) (Ideal.ofBits .f32 0x00000000#32) := by
  unfold Cert.Terms.act1row
  rw [maximumf_apply, addf_apply]
  rw [broadcastInDim_apply _ _ row (ix2 r q) (ix2 (0 : Fin 1) q) (fun ax => by
    match ax with
    | ⟨0, _⟩ => rfl
    | ⟨1, _⟩ => rfl)]
  rfl

/-- The printed index maps over the grid: the row blocks move with the point, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry: the body's value at `j` of the block is the whole-array function at the array index `i` that `j` sits at,
    when the loaded block entry is the array's at `i` and the loaded bias row is the bias array. -/
theorem point_eq (x0 : Vec Ideal S2000x32 .f32) (x1 : Vec Ideal S1x32 .f32)
    (a : Vec Ideal Cert.ReferenceIdeal.S100000x32 .f32) (row : Vec Ideal Cert.ReferenceIdeal.S1x32 .f32)
    (j : S2000x32.Idx) (i : Cert.ReferenceIdeal.S100000x32.Idx)
    (h1 : (i 1).val = (j 1).val) (hx0 : x0 j = a i) (hx1 : ∀ q : Fin 32, x1 (ix2 (0 : Fin 1) q) = row (ix2 (0 : Fin 1) q)) :
    k1_pay1 x0 x1 j = Cert.Terms.act1row a row i := by
  obtain ⟨p, q, rfl⟩ : ∃ (p : Fin 2000) (q : Fin 32), j = ix2 p q := ⟨j 0, j 1, eq_ix2 j⟩
  obtain ⟨r, q', rfl⟩ : ∃ (r : Fin 100000) (q' : Fin 32), i = ix2 r q' := ⟨i 0, i 1, eq_ix2 i⟩
  have hq : q' = q := Fin.ext h1
  subst hq
  rw [pay_apply, act1row_apply, hx0, hx1]

/-- WHAT POINT `t` WRITES BACK is block `t` of the whole-array function of the two arrays as the launch finds them. -/
theorem flushed_eq (c : Dev nD) (t : Fin cfg1.N) :
    (dat1 V c).flushed 2 t = ((cfg1.win 2).blk t).view.read (Elt Ideal)
      (Cert.Terms.act1row (F := Ideal) (V c main_v44) (V c main_v45)) := by
  show (cfg1.win 2).cut (grid1.coords t) ((dat1 V c).after 2 t) = _
  rw [after1_2]
  unfold out1_2
  rw [View.canon_unit_zero hz]
  simp only [View.ld_unit_zero (S := S2000x32) hz, View.ld_unit_zero (S := S1x32) hz]
  obtain ⟨e0, e1, e2, e3, e4, e5⟩ := idx_facts t
  funext j
  show k1_pay1 (iblk1 V c 0 t) (iblk1 V c 1 t) j
    = Cert.Terms.act1row (F := Ideal) (V c main_v44) (V c main_v45) (((cfg1.win 2).blk t).view.emb j)
  refine point_eq (iblk1 V c 0 t) (iblk1 V c 1 t) (V c main_v44) (V c main_v45) j (((cfg1.win 2).blk t).view.emb j) ?_ ?_ ?_
  · show win1_2.index t (1 : Fin 2) * 32 + 1 * (j 1).val = (j 1).val
    omega
  · show V c main_v44 (((cfg1.win 0).blk t).view.emb j) = V c main_v44 (((cfg1.win 2).blk t).view.emb j)
    refine congrArg (V c main_v44) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 32 + 1 * (j 1).val = win1_2.index t (1 : Fin 2) * 32 + 1 * (j 1).val; omega
  · intro q
    show V c main_v45 (((cfg1.win 1).blk t).view.emb (ix2 (0 : Fin 1) q)) = V c main_v45 (ix2 (0 : Fin 1) q)
    refine congrArg (V c main_v45) (funext fun a => Fin.ext ?_)
    match a with
    | ⟨0, _⟩ => show win1_1.index t (0 : Fin 2) * 1 + 1 * 0 = 0; omega
    | ⟨1, _⟩ => show win1_1.index t (1 : Fin 2) * 32 + 1 * q.val = q.val; omega

/-- An index of the result array is in point `t`'s block iff each coordinate is in the block's range on its axis. -/
theorem mem_blk (t : Fin cfg1.N) (i : S100000x32.Idx) :
    i ∈ ((cfg1.win 2).blk t).view.set ↔ ∀ a : Fin 2, win1_2.index t a * S2000x32.size a ≤ (i a).val ∧ (i a).val < win1_2.index t a * S2000x32.size a + S2000x32.size a := by
  show i ∈ ((View.whole main_v46).slice (win1_2.rect t)).set ↔ _
  rw [View.set_slice_whole, Rect.mem_set_unit]
  exact Iff.rfl

/-- Every row is in the block of the point numbered by the row's quotient by 2000. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 50 := N_1
  refine ⟨⟨(i 0).val / 2000, by rw [hN]; omega⟩, flush1_2 _, ?_⟩
  rw [mem_blk]
  obtain ⟨e0, e1, e2, e3, e4, e5⟩ := idx_facts ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 32 ≤ (i 1).val ∧ (i 1).val < win1_2.index _ (1 : Fin 2) * 32 + 32
    rw [e5]; omega

/-- THE RESULT ARRAY after the launch: the bias row added to every row of the aggregated array, then the positive part. -/
theorem final (c : Dev nD) :
    (dat1 V c).arrAt 2 cfg1.N = Cert.Terms.act1row (F := Ideal) (V c main_v44) (V c main_v45) :=
  (dat1 V c).arrAt_eq_of_cover 2 _ (fun t _ => flushed_eq V c t) cover

end Cert.KernelIdeal.Reg1

end
-- ==== Proof.Reg2.lean ====
/-
  The third launch: hidden rows times the second layer's weights, 2000 rows at a time.

  Its grid has 50 points; point `t` reads rows `2000 t … 2000 t + 1999` of the hidden array and the whole 32 × 1
  weight array, multiplies them into a zero accumulator and writes rows `2000 t …` of the one-column result. A change
  of float format is the identity on the extended reals, so entry (p, 0) of the block is `Σ_k h (2000 t + p, k) · w (k, 0)`:
  entry (2000 t + p, 0) of the whole product `h · w` (`Terms.lin2`). The 50 row blocks tile the 100000 rows, so after
  the launch the result array is the whole product.
-/
import proofs.«139740_j61314953118384_1_alg».proof.Proof.Gen.KernelIdeal.Frame
import proofs.«139740_j61314953118384_1_alg».proof.Proof.Terms
import proofs.«139740_j61314953118384_1_alg».proof.Proof.LibPlainDotHost
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the row of the hidden block against the column of
    the weights. -/
theorem pay_apply (x0 : Vec Ideal S2000x32 .f32) (x1 : Vec Ideal S32x1 .f32) (p : Fin 2000) (q : Fin 1) :
    k2_pay1 x0 x1 (ix2 p q) = ∑ k : Fin 32, x0 (ix2 p k) * x1 (ix2 k q) := by
  unfold k2_pay1
  simp only [shapeCast_self]
  exact PlainDot.matmul_zero_apply 2000 32 1 (truncf .bf16 x0 bitsLt_bf16_f32) (truncf .bf16 x1 bitsLt_bf16_f32) p q

/-- The whole product at row `r`, column `q`. -/
theorem lin2_apply (x : Vec Ideal Cert.ReferenceIdeal.S100000x32 .f32) (w : Vec Ideal Cert.ReferenceIdeal.S32x1 .f32)
    (r : Fin 100000) (q : Fin 1) :
    Cert.Terms.lin2 x w (ix2 r q) = ∑ k : Fin 32, x (ix2 r k) * w (ix2 k q) := by
  unfold Cert.Terms.lin2
  exact PlainDot.dotGeneral_apply 100000 32 1 .single x w r q

/-- The printed index maps over the grid: the row blocks move with the point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry: the body's value at `j` of the block is the whole product at the array index `i` that `j` sits at, when
    row `j 0` of the loaded block is row `i 0` of the array and the loaded weights are the weight array. -/
theorem point_eq (x0 : Vec Ideal S2000x32 .f32) (x1 : Vec Ideal S32x1 .f32)
    (x : Vec Ideal Cert.ReferenceIdeal.S100000x32 .f32) (w : Vec Ideal Cert.ReferenceIdeal.S32x1 .f32)
    (j : S2000x1.Idx) (i : Cert.ReferenceIdeal.S100000x1.Idx)
    (h1 : (i 1).val = (j 1).val) (hx0 : ∀ k : Fin 32, x0 (ix2 (j 0) k) = x (ix2 (i 0) k))
    (hx1 : ∀ (k : Fin 32) (q : Fin 1), x1 (ix2 k q) = w (ix2 k q)) :
    k2_pay1 x0 x1 j = Cert.Terms.lin2 x w i := by
  obtain ⟨p, q, rfl⟩ : ∃ (p : Fin 2000) (q : Fin 1), j = ix2 p q := ⟨j 0, j 1, eq_ix2 j⟩
  obtain ⟨r, q', rfl⟩ : ∃ (r : Fin 100000) (q' : Fin 1), i = ix2 r q' := ⟨i 0, i 1, eq_ix2 i⟩
  have hq : q' = q := Fin.ext h1
  subst hq
  rw [pay_apply, lin2_apply]
  exact Finset.sum_congr rfl fun k _ => by rw [hx0 k, hx1 k]

/-- WHAT POINT `t` WRITES BACK is block `t` of the whole product of the two arrays as the launch finds them. -/
theorem flushed_eq (c : Dev nD) (t : Fin cfg2.N) :
    (dat2 V c).flushed 2 t = ((cfg2.win 2).blk t).view.read (Elt Ideal)
      (Cert.Terms.lin2 (F := Ideal) (V c main_v46) (V c main_arg4)) := by
  show (cfg2.win 2).cut (grid2.coords t) ((dat2 V c).after 2 t) = _
  rw [after2_2]
  unfold out2_2
  rw [View.canon_unit_zero hz]
  simp only [View.ld_unit_zero (S := S2000x32) hz, View.ld_unit_zero (S := S32x1) hz]
  obtain ⟨e0, e1, e2, e3, e4, e5⟩ := idx_facts t
  funext j
  show k2_pay1 (iblk2 V c 0 t) (iblk2 V c 1 t) j
    = Cert.Terms.lin2 (F := Ideal) (V c main_v46) (V c main_arg4) (((cfg2.win 2).blk t).view.emb j)
  refine point_eq (iblk2 V c 0 t) (iblk2 V c 1 t) (V c main_v46) (V c main_arg4) j (((cfg2.win 2).blk t).view.emb j) ?_ ?_ ?_
  · show win2_2.index t (1 : Fin 2) * 1 + 1 * (j 1).val = (j 1).val
    omega
  · intro k
    show V c main_v46 (((cfg2.win 0).blk t).view.emb (ix2 (j 0) k)) = V c main_v46 (ix2 ((((cfg2.win 2).blk t).view.emb j) 0) k)
    refine congrArg (V c main_v46) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 32 + 1 * k.val = k.val; omega
  · intro k q
    show V c main_arg4 (((cfg2.win 1).blk t).view.emb (ix2 k q)) = V c main_arg4 (ix2 k q)
    refine congrArg (V c main_arg4) (funext fun a => Fin.ext ?_)
    match a with
    | ⟨0, _⟩ => show win2_1.index t (0 : Fin 2) * 32 + 1 * k.val = k.val; omega
    | ⟨1, _⟩ => show win2_1.index t (1 : Fin 2) * 1 + 1 * q.val = q.val; omega

/-- An index of the result array is in point `t`'s block iff each coordinate is in the block's range on its axis. -/
theorem mem_blk (t : Fin cfg2.N) (i : S100000x1.Idx) :
    i ∈ ((cfg2.win 2).blk t).view.set ↔ ∀ a : Fin 2, win2_2.index t a * S2000x1.size a ≤ (i a).val ∧ (i a).val < win2_2.index t a * S2000x1.size a + S2000x1.size a := by
  show i ∈ ((View.whole main_v47).slice (win2_2.rect t)).set ↔ _
  rw [View.set_slice_whole, Rect.mem_set_unit]
  exact Iff.rfl

/-- Every row is in the block of the point numbered by the row's quotient by 2000. -/
theorem cover (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 50 := N_2
  refine ⟨⟨(i 0).val / 2000, by rw [hN]; omega⟩, flush2_2 _, ?_⟩
  rw [mem_blk]
  obtain ⟨e0, e1, e2, e3, e4, e5⟩ := idx_facts ⟨(i 0).val / 2000, by rw [hN]; omega⟩
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ (i 0).val ∧ (i 0).val < (i 0).val / 2000 * 2000 + 2000; omega
  | ⟨1, _⟩ =>
    show win2_2.index _ (1 : Fin 2) * 1 ≤ (i 1).val ∧ (i 1).val < win2_2.index _ (1 : Fin 2) * 1 + 1
    rw [e5]; omega

/-- THE RESULT ARRAY after the launch: the whole product of the hidden array and the weight array. -/
theorem final (c : Dev nD) :
    (dat2 V c).arrAt 2 cfg2.N = Cert.Terms.lin2 (F := Ideal) (V c main_v46) (V c main_arg4) :=
  (dat2 V c).arrAt_eq_of_cover 2 _ (fun t _ => flushed_eq V c t) cover

end Cert.KernelIdeal.Reg2

end
-- ==== Proof.Reg3.lean ====
/-
  The fourth launch: the bias added to every node's aggregated value, then the logistic function.

  Its grid has 50 points; point `t` reads rows `2000 t … 2000 t + 1999` of the one-column aggregated array, the
  one-entry bias array, and writes the same rows of the result. The body is pointwise in the row index, so what point
  `t` writes back is rows `2000 t …` of ONE whole-array function of the two arrays (`Terms.act2row`, which spells the
  logistic function `1 / (1 + exp (-x))`: on the extended reals that expression IS the logistic function); the 50 row
  blocks tile the 100000 rows, so after the launch the result array is that function.
-/
import proofs.«139740_j61314953118384_1_alg».proof.Proof.Gen.KernelIdeal.Frame
import proofs.«139740_j61314953118384_1_alg».proof.Proof.Terms
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p` of the block: the logistic function of the block's entry plus the bias. -/
theorem pay_apply (x0 : Vec Ideal S2000x1 .f32) (x1 : Vec Ideal S1x1 .f32) (p : Fin 2000) (q : Fin 1) :
    k3_pay1 x0 x1 (ix2 p q) = FloatOps.logistic (x0 (ix2 p q) + x1 (ix2 (0 : Fin 1) q)) := by
  unfold k3_pay1
  simp only [logistic, addf_apply, shapeCast_self]
  rw [broadcastTo_1b_ab_apply]

/-- The whole-array function at row `r`: `1 / (1 + exp (-(a + b)))` is the logistic function of `a + b`. -/
theorem act2row_apply (a : Vec Ideal Cert.ReferenceIdeal.S100000x1 .f32) (row : Vec Ideal Cert.ReferenceIdeal.S1x1 .f32)
    (r : Fin 100000) (q : Fin 1) :
    Cert.Terms.act2row a row (ix2 r q) = FloatOps.logistic (F := Ideal) (φ := .f32) (a (ix2 r q) + row (ix2 (0 : Fin 1) q)) := by
  obtain rfl : q = 0 := Subsingleton.elim _ _
  unfold Cert.Terms.act2row
  simp only [Host.divf, Host.exp, Host.negf, addf_apply]
  rw [broadcastInDim_apply _ _ row (ix2 r (0 : Fin 1)) (ix2 (0 : Fin 1) (0 : Fin 1)) (fun ax => by
    match ax with
    | ⟨0, _⟩ => rfl
    | ⟨1, _⟩ => rfl)]
  rw [broadcastInDim_apply _ _ (constant (F := Ideal) Cert.ReferenceIdeal.S_ .f32 0x3F800000#32) (ix2 r (0 : Fin 1)) ix0 (fun ax => ax.elim0)]
  rw [constant_apply, Ideal.ofBits_one_f32]
  rfl

/-- The printed index maps over the grid: the row blocks move with the point, the bias entry stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry: the body's value at `j` of the block is the whole-array function at the array index `i` that `j` sits at,
    when the loaded block entry is the array's at `i` and the loaded bias row is the bias array. -/
theorem point_eq (x0 : Vec Ideal S2000x1 .f32) (x1 : Vec Ideal S1x1 .f32)
    (a : Vec Ideal Cert.ReferenceIdeal.S100000x1 .f32) (row : Vec Ideal Cert.ReferenceIdeal.S1x1 .f32)
    (j : S2000x1.Idx) (i : Cert.ReferenceIdeal.S100000x1.Idx)
    (h1 : (i 1).val = (j 1).val) (hx0 : x0 j = a i) (hx1 : ∀ q : Fin 1, x1 (ix2 (0 : Fin 1) q) = row (ix2 (0 : Fin 1) q)) :
    k3_pay1 x0 x1 j = Cert.Terms.act2row a row i := by
  obtain ⟨p, q, rfl⟩ : ∃ (p : Fin 2000) (q : Fin 1), j = ix2 p q := ⟨j 0, j 1, eq_ix2 j⟩
  obtain ⟨r, q', rfl⟩ : ∃ (r : Fin 100000) (q' : Fin 1), i = ix2 r q' := ⟨i 0, i 1, eq_ix2 i⟩
  have hq : q' = q := Fin.ext h1
  subst hq
  rw [pay_apply, act2row_apply, hx0, hx1]

/-- WHAT POINT `t` WRITES BACK is block `t` of the whole-array function of the two arrays as the launch finds them. -/
theorem flushed_eq (c : Dev nD) (t : Fin cfg3.N) :
    (dat3 V c).flushed 2 t = ((cfg3.win 2).blk t).view.read (Elt Ideal)
      (Cert.Terms.act2row (F := Ideal) (V c main_v59) (V c main_v60)) := by
  show (cfg3.win 2).cut (grid3.coords t) ((dat3 V c).after 2 t) = _
  rw [after3_2]
  unfold out3_2
  rw [View.canon_unit_zero hz]
  simp only [View.ld_unit_zero (S := S2000x1) hz, View.ld_unit_zero (S := S1x1) hz]
  obtain ⟨e0, e1, e2, e3, e4, e5⟩ := idx_facts t
  funext j
  show k3_pay1 (iblk3 V c 0 t) (iblk3 V c 1 t) j
    = Cert.Terms.act2row (F := Ideal) (V c main_v59) (V c main_v60) (((cfg3.win 2).blk t).view.emb j)
  refine point_eq (iblk3 V c 0 t) (iblk3 V c 1 t) (V c main_v59) (V c main_v60) j (((cfg3.win 2).blk t).view.emb j) ?_ ?_ ?_
  · show win3_2.index t (1 : Fin 2) * 1 + 1 * (j 1).val = (j 1).val
    omega
  · show V c main_v59 (((cfg3.win 0).blk t).view.emb j) = V c main_v59 (((cfg3.win 2).blk t).view.emb j)
    refine congrArg (V c main_v59) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 1 + 1 * (j 1).val = win3_2.index t (1 : Fin 2) * 1 + 1 * (j 1).val; omega
  · intro q
    show V c main_v60 (((cfg3.win 1).blk t).view.emb (ix2 (0 : Fin 1) q)) = V c main_v60 (ix2 (0 : Fin 1) q)
    refine congrArg (V c main_v60) (funext fun a => Fin.ext ?_)
    match a with
    | ⟨0, _⟩ => show win3_1.index t (0 : Fin 2) * 1 + 1 * 0 = 0; omega
    | ⟨1, _⟩ => show win3_1.index t (1 : Fin 2) * 1 + 1 * q.val = q.val; omega

/-- An index of the result array is in point `t`'s block iff each coordinate is in the block's range on its axis. -/
theorem mem_blk (t : Fin cfg3.N) (i : S100000x1.Idx) :
    i ∈ ((cfg3.win 2).blk t).view.set ↔ ∀ a : Fin 2, win3_2.index t a * S2000x1.size a ≤ (i a).val ∧ (i a).val < win3_2.index t a * S2000x1.size a + S2000x1.size a := by
  show i ∈ ((View.whole main_v61).slice (win3_2.rect t)).set ↔ _
  rw [View.set_slice_whole, Rect.mem_set_unit]
  exact Iff.rfl

/-- Every row is in the block of the point numbered by the row's quotient by 2000. -/
theorem cover (i : S100000x1.Idx) : ∃ t : Fin cfg3.N, (cfg3.win 2).flush t = true ∧ i ∈ ((cfg3.win 2).blk t).view.set := by
  have hi0 : (i 0).val < 100000 := (i 0).isLt
  have hi1 : (i 1).val < 1 := (i 1).isLt
  have hN : cfg3.N = 50 := N_3
  refine ⟨⟨(i 0).val / 2000, by rw [hN]; omega⟩, flush3_2 _, ?_⟩
  rw [mem_blk]
  obtain ⟨e0, e1, e2, e3, e4, e5⟩ := idx_facts ⟨(i 0).val / 2000, by rw [hN]; omega⟩
  intro a
  match a with
  | ⟨0, _⟩ =>
    show win3_2.index _ (0 : Fin 2) * 2000 ≤ (i 0).val ∧ (i 0).val < win3_2.index _ (0 : Fin 2) * 2000 + 2000
    rw [e4]; show (i 0).val / 2000 * 2000 ≤ (i 0).val ∧ (i 0).val < (i 0).val / 2000 * 2000 + 2000; omega
  | ⟨1, _⟩ =>
    show win3_2.index _ (1 : Fin 2) * 32 ≤ (i 1).val ∧ (i 1).val < win3_2.index _ (1 : Fin 2) * 1 + 1
    rw [e5]; omega

/-- THE RESULT ARRAY after the launch: the logistic function of every aggregated value plus the bias. -/
theorem final (c : Dev nD) :
    (dat3 V c).arrAt 2 cfg3.N = Cert.Terms.act2row (F := Ideal) (V c main_v59) (V c main_v60) :=
  (dat3 V c).arrAt_eq_of_cover 2 _ (fun t _ => flushed_eq V c t) cover

end Cert.KernelIdeal.Reg3

end
-- ==== Proof.KChain.lean ====
/-
  The idealized kernel program's result array, read back through its host stretches and its four launches.

  At every boundary between a host stretch and a launch the buffers' contents are a fold from the launch memory
  (the generated `W0 … W9`). Read at the buffers that matter: after the first three stretches the two index lists and the
  edge weights are the shared functions of the edge list (`Terms.srcIdx`, `dstIdx`, `nrm`); no later stretch or launch
  writes them, nor an argument; the first launch leaves the product of features and weights, the next stretch its
  weighted aggregation and the bias as a row, the second launch the bias and positive part, the third the second
  product, the last stretch its aggregation and the bias as an entry, the fourth launch the bias and the logistic
  function. Composed, @main's result buffer ends at `Terms.out` of the six arguments.
-/
import proofs.«139740_j61314953118384_1_alg».proof.Proof.Gen.KernelIdeal.Frame
import proofs.«139740_j61314953118384_1_alg».proof.Proof.Terms
import proofs.«139740_j61314953118384_1_alg».proof.Proof.Reg0
import proofs.«139740_j61314953118384_1_alg».proof.Proof.Reg1
import proofs.«139740_j61314953118384_1_alg».proof.Proof.Reg2
import proofs.«139740_j61314953118384_1_alg».proof.Proof.Reg3
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx

/-- No operation of the stretch writes the buffer: its contents pass through. -/
local macro "unwritten" : tactic => `(tactic| (
  refine StableHlo.after_of_forall_not_mem _ _ (List.forall_iff_forall_mem.mp ?_)
  simp only [hostOps0, hostOps0_1, hostOps0_2, hostOps1, hostOps3, List.Forall, List.cons_append, List.nil_append, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The host stretches, for any float family and from any contents -/

section Host

variable {F : FTy → Type} [FloatOps F] (W : Valuation τ sig (Elt F))

/-- The two stretches that compute the index lists and the inverse square-root degrees, as one list. -/
abbrev ops01 : List (HloOp τ sig (Elt F)) := hostOps0 ++ hostOps0_1

theorem ops01_v5 : StableHlo.after ops01 W (Proc.devRef .tc main_v5) = Cert.Terms.srcIdx (F := F) (W (Proc.devRef .tc main_arg1)) := by
  simp only [ops01, hostOps0, hostOps0_1, List.cons_append, List.nil_append]
  after_results
  rfl

theorem ops01_v6 : StableHlo.after ops01 W (Proc.devRef .tc main_v6) = Cert.Terms.dstIdx (F := F) (W (Proc.devRef .tc main_arg1)) := by
  simp only [ops01, hostOps0, hostOps0_1, List.cons_append, List.nil_append]
  after_results
  rfl

theorem ops01_v15 : StableHlo.after ops01 W (Proc.devRef .tc main_v15)
    = Cert.Terms.dinv (F := F) (Cert.Terms.dstIdx (F := F) (W (Proc.devRef .tc main_arg1))) := by
  simp only [ops01, hostOps0, hostOps0_1, List.cons_append, List.nil_append]
  after_results
  rfl

/-- The third stretch: the edge weights from the index lists and the inverse square-root degrees. -/
theorem ops02_v30 : StableHlo.after hostOps0_2 W (Proc.devRef .tc main_v30)
    = Cert.Terms.nrm' (F := F) (W (Proc.devRef .tc main_v15)) (W (Proc.devRef .tc main_v5)) (W (Proc.devRef .tc main_v6)) := by
  simp only [hostOps0_2]
  after_results_simp
  rfl

/-- The stretch after the first launch: the weighted aggregation of the product's rows, and the bias as a row. -/
theorem ops1_v44 : StableHlo.after hostOps1 W (Proc.devRef .tc main_v44)
    = Cert.Terms.agg32 (F := F) (W (Proc.devRef .tc main_v5)) (W (Proc.devRef .tc main_v6)) (W (Proc.devRef .tc main_v30))
        (W (Proc.devRef .tc main_v31)) := by
  simp only [hostOps1]
  after_results_simp
  rfl

theorem ops1_v45 : StableHlo.after hostOps1 W (Proc.devRef .tc main_v45)
    = shapeCast S1x32 (W (Proc.devRef .tc main_arg3)) shapeCasts_S32_S1x32 := by
  simp only [hostOps1]
  after_results_simp
  rfl

/-- The stretch after the third launch: the weighted aggregation of the second product, and the bias as an entry. -/
theorem ops3_v59 : StableHlo.after hostOps3 W (Proc.devRef .tc main_v59)
    = Cert.Terms.agg1 (F := F) (W (Proc.devRef .tc main_v5)) (W (Proc.devRef .tc main_v6)) (W (Proc.devRef .tc main_v30))
        (W (Proc.devRef .tc main_v47)) := by
  simp only [hostOps3]
  after_results_simp
  rfl

theorem ops3_v60 : StableHlo.after hostOps3 W (Proc.devRef .tc main_v60)
    = shapeCast S1x1 (W (Proc.devRef .tc main_arg5)) shapeCasts_S1_S1x1 := by
  simp only [hostOps3]
  after_results_simp
  rfl

/-- The three stretches before the first launch, as one list. -/
abbrev ops03 : List (HloOp τ sig (Elt F)) := hostOps0 ++ (hostOps0_1 ++ hostOps0_2)

/-! What a stretch does not write passes through it. -/

theorem keep03_arg0 : StableHlo.after ops03 W (Proc.devRef .tc main_arg0) = W (Proc.devRef .tc main_arg0) := by unwritten
theorem keep03_arg2 : StableHlo.after ops03 W (Proc.devRef .tc main_arg2) = W (Proc.devRef .tc main_arg2) := by unwritten
theorem keep03_arg3 : StableHlo.after ops03 W (Proc.devRef .tc main_arg3) = W (Proc.devRef .tc main_arg3) := by unwritten
theorem keep03_arg4 : StableHlo.after ops03 W (Proc.devRef .tc main_arg4) = W (Proc.devRef .tc main_arg4) := by unwritten
theorem keep03_arg5 : StableHlo.after ops03 W (Proc.devRef .tc main_arg5) = W (Proc.devRef .tc main_arg5) := by unwritten
theorem keep02_v5 : StableHlo.after hostOps0_2 W (Proc.devRef .tc main_v5) = W (Proc.devRef .tc main_v5) := by unwritten
theorem keep02_v6 : StableHlo.after hostOps0_2 W (Proc.devRef .tc main_v6) = W (Proc.devRef .tc main_v6) := by unwritten
theorem keep1_v5 : StableHlo.after hostOps1 W (Proc.devRef .tc main_v5) = W (Proc.devRef .tc main_v5) := by unwritten
theorem keep1_v6 : StableHlo.after hostOps1 W (Proc.devRef .tc main_v6) = W (Proc.devRef .tc main_v6) := by unwritten
theorem keep1_v30 : StableHlo.after hostOps1 W (Proc.devRef .tc main_v30) = W (Proc.devRef .tc main_v30) := by unwritten
theorem keep1_arg4 : StableHlo.after hostOps1 W (Proc.devRef .tc main_arg4) = W (Proc.devRef .tc main_arg4) := by unwritten
theorem keep1_arg5 : StableHlo.after hostOps1 W (Proc.devRef .tc main_arg5) = W (Proc.devRef .tc main_arg5) := by unwritten

end Host

/-! ## The run at the extended reals: the boundaries' contents at the buffers that matter -/

section Run

variable (m : (ℓ : Loc nD τ sig) → Buf (Elt Ideal) ℓ) (ρ : Dev nD → PrngReg)

theorem W2_eq (c : Dev nD) : W2 m ρ c = StableHlo.after ops01 (W0 m ρ c) := by
  show StableHlo.after hostOps0_1 (StableHlo.after hostOps0 (W0 m ρ c)) = _
  rw [ops01, StableHlo.after_append]

theorem W3_eq (c : Dev nD) : W3 m ρ c = StableHlo.after ops03 (W0 m ρ c) := by
  show StableHlo.after hostOps0_2 (StableHlo.after hostOps0_1 (StableHlo.after hostOps0 (W0 m ρ c))) = _
  rw [ops03, StableHlo.after_append, StableHlo.after_append]

/-! ### Before the first launch -/

theorem w2_v5 (c : Dev nD) : W2 m ρ c (Proc.devRef .tc main_v5) = (Cert.Terms.srcIdx (F := Ideal) (m ((c : Thread nD τ).loc main_arg1))) := by
  rw [W2_eq]; exact ops01_v5 (W0 m ρ c)
theorem w2_v6 (c : Dev nD) : W2 m ρ c (Proc.devRef .tc main_v6) = (Cert.Terms.dstIdx (F := Ideal) (m ((c : Thread nD τ).loc main_arg1))) := by
  rw [W2_eq]; exact ops01_v6 (W0 m ρ c)
theorem w2_v15 (c : Dev nD) : W2 m ρ c (Proc.devRef .tc main_v15) = Cert.Terms.dinv (F := Ideal) (Cert.Terms.dstIdx (F := Ideal) (m ((c : Thread nD τ).loc main_arg1))) := by
  rw [W2_eq]; exact ops01_v15 (W0 m ρ c)

theorem w3_v5 (c : Dev nD) : W3 m ρ c (Proc.devRef .tc main_v5) = (Cert.Terms.srcIdx (F := Ideal) (m ((c : Thread nD τ).loc main_arg1))) :=
  (keep02_v5 (W2 m ρ c)).trans (w2_v5 m ρ c)
theorem w3_v6 (c : Dev nD) : W3 m ρ c (Proc.devRef .tc main_v6) = (Cert.Terms.dstIdx (F := Ideal) (m ((c : Thread nD τ).loc main_arg1))) :=
  (keep02_v6 (W2 m ρ c)).trans (w2_v6 m ρ c)
theorem w3_v30 (c : Dev nD) : W3 m ρ c (Proc.devRef .tc main_v30) = (Cert.Terms.nrm (F := Ideal) (Cert.Terms.srcIdx (F := Ideal) (m ((c : Thread nD τ).loc main_arg1))) (Cert.Terms.dstIdx (F := Ideal) (m ((c : Thread nD τ).loc main_arg1)))) := by
  refine (ops02_v30 (W2 m ρ c)).trans ?_
  rw [w2_v15, w2_v5, w2_v6]
  rfl

theorem w3_arg0 (c : Dev nD) : W3 m ρ c (Proc.devRef .tc main_arg0) = m ((c : Thread nD τ).loc main_arg0) := by
  rw [W3_eq]; exact keep03_arg0 (W0 m ρ c)
theorem w3_arg2 (c : Dev nD) : W3 m ρ c (Proc.devRef .tc main_arg2) = m ((c : Thread nD τ).loc main_arg2) := by
  rw [W3_eq]; exact keep03_arg2 (W0 m ρ c)
theorem w3_arg3 (c : Dev nD) : W3 m ρ c (Proc.devRef .tc main_arg3) = m ((c : Thread nD τ).loc main_arg3) := by
  rw [W3_eq]; exact keep03_arg3 (W0 m ρ c)
theorem w3_arg4 (c : Dev nD) : W3 m ρ c (Proc.devRef .tc main_arg4) = m ((c : Thread nD τ).loc main_arg4) := by
  rw [W3_eq]; exact keep03_arg4 (W0 m ρ c)
theorem w3_arg5 (c : Dev nD) : W3 m ρ c (Proc.devRef .tc main_arg5) = m ((c : Thread nD τ).loc main_arg5) := by
  rw [W3_eq]; exact keep03_arg5 (W0 m ρ c)

/-! ### The first launch and the stretch after it -/

theorem w4_v31 (c : Dev nD) : W4 m ρ c (Proc.devRef .tc main_v31) = (Cert.Terms.lin1 (F := Ideal) (m ((c : Thread nD τ).loc main_arg0)) (m ((c : Thread nD τ).loc main_arg2))) := by
  have h := (W4_arr m ρ c 2).trans (Reg0.final (V3 m ρ) c)
  rw [show V3 m ρ c main_arg0 = _ from w3_arg0 m ρ c, show V3 m ρ c main_arg2 = _ from w3_arg2 m ρ c] at h
  exact h

/-- A one-axis array cast to one row is that array broadcast along the new axis. -/
theorem row32_eq (b : Vec Ideal S32 .f32) :
    shapeCast S1x32 b shapeCasts_S32_S1x32
      = broadcastInDim Cert.ReferenceIdeal.S1x32 ![1] Cert.ReferenceIdeal.Gen.bcast_S32_S1x32_1 b := by
  funext j
  obtain ⟨u, i, rfl⟩ : ∃ (u : Fin 1) (i : Fin 32), j = ix2 u i := ⟨j 0, j 1, eq_ix2 j⟩
  rw [shapeCast_a_1a_apply]
  exact (broadcastInDim_apply _ _ b (ix2 u i) (ix1 i) (fun ax => by
    match ax with
    | ⟨0, _⟩ => rfl)).symm

/-- The same for a one-entry array. -/
theorem row1_eq (b : Vec Ideal S1 .f32) :
    shapeCast S1x1 b shapeCasts_S1_S1x1
      = broadcastInDim Cert.ReferenceIdeal.S1x1 ![1] Cert.ReferenceIdeal.Gen.bcast_S1_S1x1_1 b := by
  funext j
  obtain ⟨u, i, rfl⟩ : ∃ (u : Fin 1) (i : Fin 1), j = ix2 u i := ⟨j 0, j 1, eq_ix2 j⟩
  rw [shapeCast_a_1a_apply]
  obtain rfl : i = 0 := Subsingleton.elim _ _
  exact (broadcastInDim_apply _ _ b (ix2 u (0 : Fin 1)) (ix1 (0 : Fin 1)) (fun ax => by
    match ax with
    | ⟨0, _⟩ => rfl)).symm

theorem w5_v44 (c : Dev nD) : W5 m ρ c (Proc.devRef .tc main_v44) = (Cert.Terms.agg32 (F := Ideal) (Cert.Terms.srcIdx (F := Ideal) (m ((c : Thread nD τ).loc main_arg1))) (Cert.Terms.dstIdx (F := Ideal) (m ((c : Thread nD τ).loc main_arg1))) (Cert.Terms.nrm (F := Ideal) (Cert.Terms.srcIdx (F := Ideal) (m ((c : Thread nD τ).loc main_arg1))) (Cert.Terms.dstIdx (F := Ideal) (m ((c : Thread nD τ).loc main_arg1)))) (Cert.Terms.lin1 (F := Ideal) (m ((c : Thread nD τ).loc main_arg0)) (m ((c : Thread nD τ).loc main_arg2)))) := by
  refine (ops1_v44 (W4 m ρ c)).trans ?_
  rw [W4_of_ne m ρ c main_v5 (by decide), W4_of_ne m ρ c main_v6 (by decide), W4_of_ne m ρ c main_v30 (by decide),
    w4_v31, w3_v5, w3_v6, w3_v30]

theorem w5_v45 (c : Dev nD) : W5 m ρ c (Proc.devRef .tc main_v45)
    = broadcastInDim Cert.ReferenceIdeal.S1x32 ![1] Cert.ReferenceIdeal.Gen.bcast_S32_S1x32_1 (m ((c : Thread nD τ).loc main_arg3)) := by
  refine (ops1_v45 (W4 m ρ c)).trans ?_
  rw [W4_of_ne m ρ c main_arg3 (by decide), w3_arg3]
  exact row32_eq _

/-! ### What no later stretch or launch writes -/

theorem w7_v5 (c : Dev nD) : W7 m ρ c (Proc.devRef .tc main_v5) = W3 m ρ c (Proc.devRef .tc main_v5) :=
  (W7_of_ne m ρ c main_v5 (by decide)).trans ((W6_of_ne m ρ c main_v5 (by decide)).trans
    ((keep1_v5 (W4 m ρ c)).trans (W4_of_ne m ρ c main_v5 (by decide))))
theorem w7_v6 (c : Dev nD) : W7 m ρ c (Proc.devRef .tc main_v6) = W3 m ρ c (Proc.devRef .tc main_v6) :=
  (W7_of_ne m ρ c main_v6 (by decide)).trans ((W6_of_ne m ρ c main_v6 (by decide)).trans
    ((keep1_v6 (W4 m ρ c)).trans (W4_of_ne m ρ c main_v6 (by decide))))
theorem w7_v30 (c : Dev nD) : W7 m ρ c (Proc.devRef .tc main_v30) = W3 m ρ c (Proc.devRef .tc main_v30) :=
  (W7_of_ne m ρ c main_v30 (by decide)).trans ((W6_of_ne m ρ c main_v30 (by decide)).trans
    ((keep1_v30 (W4 m ρ c)).trans (W4_of_ne m ρ c main_v30 (by decide))))
theorem w7_arg5 (c : Dev nD) : W7 m ρ c (Proc.devRef .tc main_arg5) = W3 m ρ c (Proc.devRef .tc main_arg5) :=
  (W7_of_ne m ρ c main_arg5 (by decide)).trans ((W6_of_ne m ρ c main_arg5 (by decide)).trans
    ((keep1_arg5 (W4 m ρ c)).trans (W4_of_ne m ρ c main_arg5 (by decide))))
theorem w6_arg4 (c : Dev nD) : W6 m ρ c (Proc.devRef .tc main_arg4) = W3 m ρ c (Proc.devRef .tc main_arg4) :=
  (W6_of_ne m ρ c main_arg4 (by decide)).trans
    ((keep1_arg4 (W4 m ρ c)).trans (W4_of_ne m ρ c main_arg4 (by decide)))

/-! ### The second and third launches -/

theorem w6_v46 (c : Dev nD) : W6 m ρ c (Proc.devRef .tc main_v46) = (Cert.Terms.act1 (F := Ideal) (Cert.Terms.agg32 (F := Ideal) (Cert.Terms.srcIdx (F := Ideal) (m ((c : Thread nD τ).loc main_arg1))) (Cert.Terms.dstIdx (F := Ideal) (m ((c : Thread nD τ).loc main_arg1))) (Cert.Terms.nrm (F := Ideal) (Cert.Terms.srcIdx (F := Ideal) (m ((c : Thread nD τ).loc main_arg1))) (Cert.Terms.dstIdx (F := Ideal) (m ((c : Thread nD τ).loc main_arg1)))) (Cert.Terms.lin1 (F := Ideal) (m ((c : Thread nD τ).loc main_arg0)) (m ((c : Thread nD τ).loc main_arg2)))) (m ((c : Thread nD τ).loc main_arg3))) := by
  have h := (W6_arr m ρ c 2).trans (Reg1.final (V5 m ρ) c)
  rw [show V5 m ρ c main_v44 = _ from w5_v44 m ρ c, show V5 m ρ c main_v45 = _ from w5_v45 m ρ c] at h
  exact h

theorem w7_v47 (c : Dev nD) : W7 m ρ c (Proc.devRef .tc main_v47) = (Cert.Terms.lin2 (F := Ideal) (Cert.Terms.act1 (F := Ideal) (Cert.Terms.agg32 (F := Ideal) (Cert.Terms.srcIdx (F := Ideal) (m ((c : Thread nD τ).loc main_arg1))) (Cert.Terms.dstIdx (F := Ideal) (m ((c : Thread nD τ).loc main_arg1))) (Cert.Terms.nrm (F := Ideal) (Cert.Terms.srcIdx (F := Ideal) (m ((c : Thread nD τ).loc main_arg1))) (Cert.Terms.dstIdx (F := Ideal) (m ((c : Thread nD τ).loc main_arg1)))) (Cert.Terms.lin1 (F := Ideal) (m ((c : Thread nD τ).loc main_arg0)) (m ((c : Thread nD τ).loc main_arg2)))) (m ((c : Thread nD τ).loc main_arg3))) (m ((c : Thread nD τ).loc main_arg4))) := by
  have h := (W7_arr m ρ c 2).trans (Reg2.final (V6 m ρ) c)
  rw [show V6 m ρ c main_v46 = _ from w6_v46 m ρ c,
    show V6 m ρ c main_arg4 = _ from (w6_arg4 m ρ c).trans (w3_arg4 m ρ c)] at h
  exact h

/-! ### The last stretch and the fourth launch -/

theorem w8_v59 (c : Dev nD) : W8 m ρ c (Proc.devRef .tc main_v59) = (Cert.Terms.agg1 (F := Ideal) (Cert.Terms.srcIdx (F := Ideal) (m ((c : Thread nD τ).loc main_arg1))) (Cert.Terms.dstIdx (F := Ideal) (m ((c : Thread nD τ).loc main_arg1))) (Cert.Terms.nrm (F := Ideal) (Cert.Terms.srcIdx (F := Ideal) (m ((c : Thread nD τ).loc main_arg1))) (Cert.Terms.dstIdx (F := Ideal) (m ((c : Thread nD τ).loc main_arg1)))) (Cert.Terms.lin2 (F := Ideal) (Cert.Terms.act1 (F := Ideal) (Cert.Terms.agg32 (F := Ideal) (Cert.Terms.srcIdx (F := Ideal) (m ((c : Thread nD τ).loc main_arg1))) (Cert.Terms.dstIdx (F := Ideal) (m ((c : Thread nD τ).loc main_arg1))) (Cert.Terms.nrm (F := Ideal) (Cert.Terms.srcIdx (F := Ideal) (m ((c : Thread nD τ).loc main_arg1))) (Cert.Terms.dstIdx (F := Ideal) (m ((c : Thread nD τ).loc main_arg1)))) (Cert.Terms.lin1 (F := Ideal) (m ((c : Thread nD τ).loc main_arg0)) (m ((c : Thread nD τ).loc main_arg2)))) (m ((c : Thread nD τ).loc main_arg3))) (m ((c : Thread nD τ).loc main_arg4)))) := by
  refine (ops3_v59 (W7 m ρ c)).trans ?_
  rw [w7_v5, w7_v6, w7_v30, w7_v47, w3_v5, w3_v6, w3_v30]

theorem w8_v60 (c : Dev nD) : W8 m ρ c (Proc.devRef .tc main_v60)
    = broadcastInDim Cert.ReferenceIdeal.S1x1 ![1] Cert.ReferenceIdeal.Gen.bcast_S1_S1x1_1 (m ((c : Thread nD τ).loc main_arg5)) := by
  refine (ops3_v60 (W7 m ρ c)).trans ?_
  rw [w7_arg5, w3_arg5]
  exact row1_eq _

/-- @MAIN'S RESULT BUFFER at the last boundary: the network function of the six arguments. -/
theorem w9_v61 (c : Dev nD) :
    W9 m ρ c (Proc.devRef .tc main_v61) = Cert.Terms.out (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  have h := (W9_arr m ρ c 2).trans (Reg3.final (V8 m ρ) c)
  rw [show V8 m ρ c main_v59 = _ from w8_v59 m ρ c, show V8 m ρ c main_v60 = _ from w8_v60 m ρ c] at h
  exact h

end Run

end Cert.KernelIdeal.Chain

end
-- ==== Proof.RefValue.lean ====
/-
  The reference program's result, read back, is the shared network function of its six arguments: the operations'
  composed term is that function's definition unfolded (the degree and edge-weight chain that the reference spells
  twice, once per layer, is one term).
-/
import proofs.«139740_j61314953118384_1_alg».proof.Proof.RefRun
import proofs.«139740_j61314953118384_1_alg».proof.Proof.Terms

noncomputable section

namespace Cert.ReferenceIdeal.RefValue

open Cert.ReferenceIdeal Cert.ReferenceIdeal.Gen Cert.ReferenceIdeal.RunP Idealize.ShloMosaic Idealize.ShloMosaic.TcCoe Idealize.SL.Sem

variable {F : FTy → Type} [FloatOps F]

set_option maxRecDepth 8192 in
/-- The run's composed term is `Terms.out` of the arguments' launch contents. -/
theorem res_eq (m : (ℓ : Loc nD τ sig) → Buf (Elt F) ℓ) (c : Dev nD) :
    res_main_v97 m c = Cert.Terms.out (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v97 Cert.Terms.out Cert.Terms.act2 Cert.Terms.act2row Cert.Terms.agg1 Cert.Terms.lin2 Cert.Terms.act1
    Cert.Terms.act1row Cert.Terms.agg32 Cert.Terms.lin1 Cert.Terms.nrm Cert.Terms.nrm' Cert.Terms.dinv Cert.Terms.deg Cert.Terms.wrap
    Cert.Terms.srcIdx Cert.Terms.dstIdx
  rfl

end Cert.ReferenceIdeal.RefValue

end
-- ==== Proof.lean ====
/-
  A two-layer graph convolution: the Pallas program against its jnp reference, over the extended reals.

  Both programs build the same edge lists (one self-loop per node appended), degrees, inverse square-root degrees and
  edge weights on the host, and per layer gather the source rows of a linear map of the node rows, scale them by the
  edge weights and sum them into the destination rows. The kernel program computes each layer's linear map and its
  bias-and-activation in launches of 50 row blocks; the reference computes them as whole-array host operations. On the
  extended reals a change of float format is the identity, a product accumulated into zero over a row block is the whole
  product's rows, and the logistic function is `1 / (1 + exp (-x))`, so both programs end at one function of the six
  arguments (`Terms.out`). No law of arithmetic beyond re-indexing a finite sum is used, so the finiteness of the inputs
  is never opened.

  The frames of the two kernel programs are the generated ones; the reference's frame is its run with the result
  dropped; the idealization's ledger is empty.
-/
import proofs.«139740_j61314953118384_1_alg».proof.Defs
import proofs.«139740_j61314953118384_1_alg».proof.Proof.Gen.Kernel
import proofs.«139740_j61314953118384_1_alg».proof.Proof.Gen.Kernel.Frame
import proofs.«139740_j61314953118384_1_alg».proof.Proof.Gen.KernelIdeal
import proofs.«139740_j61314953118384_1_alg».proof.Proof.Gen.KernelIdeal.Frame
import proofs.«139740_j61314953118384_1_alg».proof.Proof.Gen.ReferenceIdeal
import proofs.«139740_j61314953118384_1_alg».proof.Proof.Gen.Pre_finite_inputs
import proofs.«139740_j61314953118384_1_alg».proof.Proof.KRun
import proofs.«139740_j61314953118384_1_alg».proof.Proof.KChain
import proofs.«139740_j61314953118384_1_alg».proof.Proof.RefRun
import proofs.«139740_j61314953118384_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- Both idealized programs end with their result at the network function of the (agreeing) arguments. -/
theorem algebraic : Cert.algebraic_KernelIdeal_ReferenceIdeal := by
  intro m ρ m' ρ' _ hagree
  refine ⟨fun c => Cert.Terms.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.w9_v61 m ρ c), (h c).2⟩)
      (Cert.KernelIdeal.RunP.run_result (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.RefValue.res_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
